-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x32x64x64 : Shape := ⟨5, ![8, 64, 32, 64, 64]⟩
abbrev S_ : Shape := ⟨0, ![]⟩

class Facts : Prop where
  bcast_S_S8x64x32x64x64 : S_.BroadcastsInDim S8x64x32x64x64 (![] : Fin 0 → Fin S8x64x32x64x64.rank)
  reducesTo_S8x64x32x64x64_S_d0_1_2_3_4 : S8x64x32x64x64.ReducesTo [0, 1, 2, 3, 4] S_
  h_S_ : 0 < S_.numel

variable [Facts]

def fn {F : FTy → Type} [FloatOps F] (main_arg0 : FVec F S8x64x32x64x64 .f32) : IVec S_ 1 :=
  let main_v0 : FVec F S8x64x32x64x64 .f32 := Host.absf main_arg0
  let main_cst : FVec F S_ .f32 := constant S_ .f32 0x7F800000#32
  let main_v1 : FVec F S8x64x32x64x64 .f32 := broadcastInDim S8x64x32x64x64 ![] bcast_S_S8x64x32x64x64 main_cst
  let main_v2 : IVec S8x64x32x64x64 1 := cmpf .olt main_v0 main_v1
  let main_c : IVec S_ 1 := constantI S_ 1 1#1
  let main_v3 : IVec S_ 1 := (fun x v => Host.reduce IntOp.andi x v reducesTo_S8x64x32x64x64_S_d0_1_2_3_4 h_S_) main_v2 main_c
  main_v3
-- ==== Kernel.lean ====
abbrev S8x64x32x64x64 : Shape := ⟨5, ![8, 64, 32, 64, 64]⟩
abbrev S8x64x131072 : Shape := ⟨3, ![8, 64, 131072]⟩
abbrev S8x64x64 : Shape := ⟨3, ![8, 64, 64]⟩
abbrev S1x64x32768 : Shape := ⟨3, ![1, 64, 32768]⟩
abbrev S1x64x64 : Shape := ⟨3, ![1, 64, 64]⟩
abbrev S64x64 : Shape := ⟨2, ![64, 64]⟩
abbrev S64x1 : Shape := ⟨2, ![64, 1]⟩
abbrev S64x32768 : Shape := ⟨2, ![64, 32768]⟩
abbrev S64 : Shape := ⟨1, ![64]⟩
abbrev S1x64 : Shape := ⟨2, ![1, 64]⟩

abbrev nBuf : Space → Nat
  | .hbm => 3
  | .vmem => 6
  | .smem => 0
  | _ => 0

abbrev bufTy : (tb : Table) → Fin (tcTables nBuf tb) → BufTy
  | .hbm, ⟨0, _⟩ => ⟨S8x64x32x64x64, .f32⟩
  | .hbm, ⟨1, _⟩ => ⟨S8x64x131072, .f32⟩
  | .hbm, ⟨2, _⟩ => ⟨S8x64x64, .f32⟩
  | .local _ .vmem, ⟨0, _⟩ => ⟨S1x64x32768, .f32⟩
  | .local _ .vmem, ⟨1, _⟩ => ⟨S1x64x32768, .f32⟩
  | .local _ .vmem, ⟨2, _⟩ => ⟨S1x64x64, .f32⟩
  | .local _ .vmem, ⟨3, _⟩ => ⟨S1x64x64, .f32⟩
  | .local _ .vmem, ⟨4, _⟩ => ⟨S64x64, .f32⟩
  | .local _ .vmem, ⟨5, _⟩ => ⟨S64x1, .f32⟩
  | _, _ => ⟨S8x64x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S8x64x32x64x64_S8x64x131072 : S8x64x32x64x64.ShapeCasts S8x64x131072
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64x32768_S1x64x32768_0_0_0 : ∀ a, (![0, 0, 0] : Fin 3 → Nat) a + S1x64x32768.size a ≤ S1x64x32768.size a
  h_S1x64x32768 : 0 < S1x64x32768.numel
  shapeCasts_S1x64x32768_S64x32768 : S1x64x32768.ShapeCasts S64x32768
  bitsLt_bf16_f32 : FTy.bits .bf16 < FTy.bits .f32
  reduces_S64x32768_S64 : S64x32768.Reduces [1] S64
  shapeCasts_S64_S64x1 : S64.ShapeCasts S64x1
  transposes_S64x1_p1_0_S1x64 : S64x1.Transposes [1, 0] S1x64
  broadcasts_S64x1_S64x64 : S64x1.Broadcasts S64x64
  broadcasts_S1x64_S64x64 : S1x64.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S64x32768_S64x32768_S64x64_1_1_0_0_n_n_wf : DotDims.WF S64x32768 S64x32768 S64x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32768.size a ≤ S8x64x131072.size a
  hwx0_0 : ∀ i : grid0.Coords, EltTy.bits .f32 = 32 ∨ (Rect.block (s := S8x64x131072) S1x64x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x64x64.size a
  hwx0_1 : ∀ i : grid0.Coords, EltTy.bits .f32 = 32 ∨ (Rect.block (s := S8x64x64) S1x64x64.size (cc0_transform_1 i) (hinb0_1 i)).WholeWords (EltTy.packing .f32)

variable [Facts₀]

def dot_S64x32768_S64x32768_S64x64_1_1_0_0_n_n : DotDims S64x32768 S64x32768 S64x64 where
  lhsContracting := [1]
  rhsContracting := [1]
  lhsNonContracting := [0]
  rhsNonContracting := [0]
  lhsBatch := []
  rhsBatch := []
  wf := dot_S64x32768_S64x32768_S64x64_1_1_0_0_n_n_wf

abbrev win0_0 : Pipeline.Window sig grid0 :=
  Pipeline.Window.ofSpec (Memref.whole main_v0) S1x64x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x64x32x64x64 : Shape := ⟨5, ![8, 64, 32, 64, 64]⟩
abbrev S8x64x64x32x64 : Shape := ⟨5, ![8, 64, 64, 32, 64]⟩
abbrev S8x131072x64 : Shape := ⟨3, ![8, 131072, 64]⟩
abbrev S_ : Shape := ⟨0, ![]⟩
abbrev S8x64 : Shape := ⟨2, ![8, 64]⟩
abbrev S8x1x64 : Shape := ⟨3, ![8, 1, 64]⟩
abbrev S8x64x64 : Shape := ⟨3, ![8, 64, 64]⟩

abbrev nBuf : Space → Nat
  | .hbm => 15
  | .vmem => 0
  | .smem => 0
  | _ => 0

abbrev bufTy : (tb : Table) → Fin (tcTables nBuf tb) → BufTy
  | .hbm, ⟨0, _⟩ => ⟨S8x64x32x64x64, .f32⟩
  | .hbm, ⟨1, _⟩ => ⟨S8x64x64x32x64, .f32⟩
  | .hbm, ⟨2, _⟩ => ⟨S8x131072x64, .f32⟩
  | .hbm, ⟨3, _⟩ => ⟨S_, .f32⟩
  | .hbm, ⟨4, _⟩ => ⟨S8x64, .f32⟩
  | .hbm, ⟨5, _⟩ => ⟨S8x1x64, .f32⟩
  | .hbm, ⟨6, _⟩ => ⟨S_, .f32⟩
  | .hbm, ⟨7, _⟩ => ⟨S8x1x64, .f32⟩
  | .hbm, ⟨8, _⟩ => ⟨S8x1x64, .f32⟩
  | .hbm, ⟨9, _⟩ => ⟨S8x131072x64, .f32⟩
  | .hbm, ⟨10, _⟩ => ⟨S8x131072x64, .f32⟩
  | .hbm, ⟨11, _⟩ => ⟨S8x64x64, .f32⟩
  | .hbm, ⟨12, _⟩ => ⟨S_, .f32⟩
  | .hbm, ⟨13, _⟩ => ⟨S8x64x64, .f32⟩
  | .hbm, ⟨14, _⟩ => ⟨S8x64x64, .f32⟩
  | _, _ => ⟨S8x64x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  transposes_S8x64x32x64x64_S8x64x64x32x64_0_3_4_2_1 : S8x64x32x64x64.Transposes [0, 3, 4, 2, 1] S8x64x64x32x64
  shapeCasts_S8x64x64x32x64_S8x131072x64 : S8x64x64x32x64.ShapeCasts S8x131072x64
  reducesTo_S8x131072x64_S8x64_d1 : S8x131072x64.ReducesTo [1] S8x64
  h_S_ : 0 < S_.numel
  bcast_S8x64_S8x1x64_0_2 : S8x64.BroadcastsInDim S8x1x64 (![0, 2] : Fin 2 → Fin S8x1x64.rank)
  bcast_S_S8x1x64 : S_.BroadcastsInDim S8x1x64 (![] : Fin 0 → Fin S8x1x64.rank)
  bcast_S8x1x64_S8x131072x64_0_1_2 : S8x1x64.BroadcastsInDim S8x131072x64 (![0, 1, 2] : Fin 3 → Fin S8x131072x64.rank)
  bcast_S_S8x64x64 : S_.BroadcastsInDim S8x64x64 (![] : Fin 0 → Fin S8x64x64.rank)
  dot_S8x131072x64_S8x131072x64_S8x64x64_1_1_2_2_0_0_wf : DotDims.WF S8x131072x64 S8x131072x64 S8x64x64 [1] [1] [2] [2] [0] [0]

variable [Facts₀]

def dot_S8x131072x64_S8x131072x64_S8x64x64_1_1_2_2_0_0 : DotDims S8x131072x64 S8x131072x64 S8x64x64 where
  lhsContracting := [1]
  rhsContracting := [1]
  lhsNonContracting := [2]
  rhsNonContracting := [2]
  lhsBatch := [0]
  rhsBatch := [0]
  wf := dot_S8x131072x64_S8x131072x64_S8x64x64_1_1_2_2_0_0_wf

class Facts : Prop extends Facts₀ where

variable [Facts]
-- ==== Proof.Finite.lean ====
/-
  What the precondition says of the input: every entry is a real number.

  The precondition is `all (|x| < +∞)`: a conjunction over every index, so each entry's absolute value is
  below `+∞`; on the extended reals `|y| = max y (-y)`, which is `+∞` at both infinities, so `y` is a real.
-/
import proofs.«123525_j25031069401648_1_alg».proof.Pre_finite_inputs
import proofs.«123525_j25031069401648_1_alg».proof.Proof.Gen.Pre_finite_inputs
import Idealize.ShloMosaic.Lib.ReduceAll
import Idealize.ShloMosaic.PureOps.Ideal

noncomputable section

namespace Cert.Finite

open Idealize.ShloMosaic Cert.Pre_finite_inputs

instance : Subsingleton S_.Idx := ⟨fun _ _ => funext fun d => d.elim0⟩

/-- The word `0x7F800000` denotes `+∞`. -/
theorem ofBits_inf : Ideal.ofBits .f32 0x7F800000#32 = ⊤ := by
  simp [Ideal.ofBits, Ideal.ieee]

/-- An extended real whose absolute value is below `+∞` is a real. -/
theorem real_of_abs_lt_top (y : EReal) (h : Ideal.cmp .olt (max y (-y)) ⊤ = 1#1) : ∃ r : ℝ, y = (r : EReal) := by
  induction y using EReal.rec with
  | bot => simp [Ideal.cmp] at h
  | top => simp [Ideal.cmp] at h
  | coe r => exact ⟨r, rfl⟩

/-- Under the precondition every entry of the input is a real number. -/
theorem real_of_pre (x : FVec Ideal S8x64x32x64x64 .f32)
    (h : Cert.Pre_finite_inputs.fn (F := Ideal) x = fun _ => 1#1) (i : S8x64x32x64x64.Idx) :
    ∃ r : ℝ, x i = (r : EReal) := by
  have h0 := congrFun h (fun a => a.elim0)
  dsimp only [Cert.Pre_finite_inputs.fn] at h0
  have hi := Host.reduce_andi_all _ _ _ _ _ h0 i
  refine real_of_abs_lt_top (x i) ?_
  rw [← ofBits_inf]
  exact hi

end Cert.Finite

end
-- ==== Proof.KernelPieces.lean ====
/-
  What one step of the kernel body leaves behind, read as values.

  The body keeps two accumulators between grid points: a 64 × 64 block that collects the products
  `a aᵀ` of the row tiles, and a 64 × 1 column that collects the row sums. At the first tile of a batch
  both are zeroed and then updated; at the other tiles they are updated; at the last tile the output block
  is computed from the two updated accumulators. Each statement below says that what a step stores is the
  step's own arithmetic (the skeleton's payload terms) applied to the tile and to what the accumulators
  held before: the store covers its whole buffer, so reading the buffer back gives the stored value, and a
  load that follows a covering store reads that store's value.
-/
import proofs.«123525_j25031069401648_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the product accumulator is zeroed, then the tile's products are added. -/
theorem xtx_first (c : Dev nD) (i : grid0.Coords) (a2 : Memref sig .tc .vmem S1x64x32768 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : cond0_0 i) (hc1 : ¬cond0_1 i)
    (x0 : Vec F S1x64x32768 .f32) :
    sout0_A_0 c i a2 h2 a3 h3 a4 h4 a5 h5 hc0 hc1 x0 = k0_pay4 x0 k0_pay1 := by
  unfold sout0_A_0
  rw [View.read_writes_eq_canon _ _ _ (scover0_A_0 c i a2 h2 a3 h3 a4 h4 a5 h5 hc0 hc1 x0)]
  unfold kernelRun0_A
  dsimp only
  sl_unfold_words
  rw [View.canon_cons_unit_zero (S := S64x64) hz2, View.readCov_unit_zero (S := S64x64) _ hz2]
  simp only [View.readAt_eq_ld, h2.read_unread, View.ld_unit_zero (S := S1x64x32768) hz3]

/-- First tile of a batch: the sum accumulator is zeroed, then the tile's row sums are added. -/
theorem sum_first (c : Dev nD) (i : grid0.Coords) (a2 : Memref sig .tc .vmem S1x64x32768 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : cond0_0 i) (hc1 : ¬cond0_1 i)
    (x0 : Vec F S1x64x32768 .f32) :
    sout0_A_1 c i a2 h2 a3 h3 a4 h4 a5 h5 hc0 hc1 x0 = k0_pay5 x0 k0_pay2 := by
  unfold sout0_A_1
  rw [View.read_writes_eq_canon _ _ _ (scover0_A_1 c i a2 h2 a3 h3 a4 h4 a5 h5 hc0 hc1 x0)]
  unfold kernelRun0_A
  dsimp only
  sl_unfold_words
  rw [View.canon_cons_unit_zero (S := S64x1) hz2, View.readCov_unit_zero (S := S64x1) _ hz2]
  simp only [View.readAt_eq_ld, h2.read_unread, View.ld_unit_zero (S := S1x64x32768) hz3]

/-- A middle tile: the tile's products are added to the product accumulator. -/
theorem xtx_mid (c : Dev nD) (i : grid0.Coords) (a2 : Memref sig .tc .vmem S1x64x32768 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : ¬cond0_0 i) (hc1 : ¬cond0_1 i)
    (x0 : Vec F S1x64x32768 .f32) (xs0 : Vec F S64x64 .f32) (xs1 : Vec F S64x1 .f32) :
    sout0_B_0 c i a2 h2 a3 h3 a4 h4 a5 h5 hc0 hc1 x0 xs0 xs1 = k0_pay4 x0 xs0 := by
  unfold sout0_B_0
  rw [View.read_writes_eq_canon _ _ _ (scover0_B_0 c i a2 h2 a3 h3 a4 h4 a5 h5 hc0 hc1 x0 xs0 xs1)]
  unfold kernelRun0_B
  dsimp only
  sl_unfold_words
  rw [View.canon_unit_zero hz2]
  simp only [View.readAt_eq_ld, h2.read_unread, h4.read_unread, h5.read_unread,
    View.ld_unit_zero (S := S1x64x32768) hz3, View.ld_unit_zero (S := S64x64) hz2, View.ld_unit_zero (S := S64x1) hz2,
    View.readCov_unit_zero (S := S64x64) _ hz2, View.readCov_unit_zero (S := S64x1) _ hz2]

/-- A middle tile: the tile's row sums are added to the sum accumulator. -/
theorem sum_mid (c : Dev nD) (i : grid0.Coords) (a2 : Memref sig .tc .vmem S1x64x32768 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : ¬cond0_0 i) (hc1 : ¬cond0_1 i)
    (x0 : Vec F S1x64x32768 .f32) (xs0 : Vec F S64x64 .f32) (xs1 : Vec F S64x1 .f32) :
    sout0_B_1 c i a2 h2 a3 h3 a4 h4 a5 h5 hc0 hc1 x0 xs0 xs1 = k0_pay5 x0 xs1 := by
  unfold sout0_B_1
  rw [View.read_writes_eq_canon _ _ _ (scover0_B_1 c i a2 h2 a3 h3 a4 h4 a5 h5 hc0 hc1 x0 xs0 xs1)]
  unfold kernelRun0_B
  dsimp only
  sl_unfold_words
  rw [View.canon_unit_zero hz2]
  simp only [View.readAt_eq_ld, h2.read_unread, h4.read_unread, h5.read_unread,
    View.ld_unit_zero (S := S1x64x32768) hz3, View.ld_unit_zero (S := S64x64) hz2, View.ld_unit_zero (S := S64x1) hz2,
    View.readCov_unit_zero (S := S64x64) _ hz2, View.readCov_unit_zero (S := S64x1) _ hz2]

/-- The last tile of a batch updates the product accumulator like a middle one, -/
theorem xtx_last (c : Dev nD) (i : grid0.Coords) (a2 : Memref sig .tc .vmem S1x64x32768 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : ¬cond0_0 i) (hc1 : cond0_1 i)
    (x0 : Vec F S1x64x32768 .f32) (xs0 : Vec F S64x64 .f32) (xs1 : Vec F S64x1 .f32) :
    sout0_C_0 c i a2 h2 a3 h3 a4 h4 a5 h5 hc0 hc1 x0 xs0 xs1 = k0_pay4 x0 xs0 := by
  unfold sout0_C_0
  rw [View.read_writes_eq_canon _ _ _ (scover0_C_0 c i a2 h2 a3 h3 a4 h4 a5 h5 hc0 hc1 x0 xs0 xs1)]
  unfold kernelRun0_C
  dsimp only
  sl_unfold_words
  rw [View.canon_unit_zero hz2]
  simp only [View.readAt_eq_ld, h2.read_unread, h4.read_unread, h5.read_unread,
    View.ld_unit_zero (S := S1x64x32768) hz3, View.ld_unit_zero (S := S64x64) hz2, View.ld_unit_zero (S := S64x1) hz2,
    View.readCov_unit_zero (S := S64x64) _ hz2, View.readCov_unit_zero (S := S64x1) _ hz2]

/-- and the sum accumulator likewise, -/
theorem sum_last (c : Dev nD) (i : grid0.Coords) (a2 : Memref sig .tc .vmem S1x64x32768 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : ¬cond0_0 i) (hc1 : cond0_1 i)
    (x0 : Vec F S1x64x32768 .f32) (xs0 : Vec F S64x64 .f32) (xs1 : Vec F S64x1 .f32) :
    sout0_C_1 c i a2 h2 a3 h3 a4 h4 a5 h5 hc0 hc1 x0 xs0 xs1 = k0_pay5 x0 xs1 := by
  unfold sout0_C_1
  rw [View.read_writes_eq_canon _ _ _ (scover0_C_1 c i a2 h2 a3 h3 a4 h4 a5 h5 hc0 hc1 x0 xs0 xs1)]
  unfold kernelRun0_C
  dsimp only
  sl_unfold_words
  rw [View.canon_unit_zero hz2]
  simp only [View.readAt_eq_ld, h2.read_unread, h4.read_unread, h5.read_unread,
    View.ld_unit_zero (S := S1x64x32768) hz3, View.ld_unit_zero (S := S64x64) hz2, View.ld_unit_zero (S := S64x1) hz2,
    View.readCov_unit_zero (S := S64x64) _ hz2, View.readCov_unit_zero (S := S64x1) _ hz2]

/-- and then writes the output block: the epilogue's arithmetic of the two UPDATED accumulators. -/
theorem out_last (c : Dev nD) (i : grid0.Coords) (a2 : Memref sig .tc .vmem S1x64x32768 .f32) (h2 : a2.IsWhole)
    (a3 : Memref sig .tc .vmem S1x64x64 .f32) (h3 : a3.IsWhole) (a4 : Memref sig .tc .vmem S64x64 .f32) (h4 : a4.IsWhole)
    (a5 : Memref sig .tc .vmem S64x1 .f32) (h5 : a5.IsWhole) (hc0 : ¬cond0_0 i) (hc1 : cond0_1 i)
    (x0 : Vec F S1x64x32768 .f32) (xs0 : Vec F S64x64 .f32) (xs1 : Vec F S64x1 .f32) :
    out0_C_1 c i a2 h2 a3 h3 a4 h4 a5 h5 hc0 hc1 x0 xs0 xs1 = k0_pay6 (k0_pay5 x0 xs1) (k0_pay4 x0 xs0) := by
  unfold out0_C_1
  rw [View.read_writes_eq_canon _ _ _ (cover0_C_1 c i a2 h2 a3 h3 a4 h4 a5 h5 hc0 hc1 x0 xs0 xs1)]
  unfold kernelRun0_C
  dsimp only
  sl_unfold_words
  rw [View.canon_unit_zero hz3]
  simp only [View.readAt_eq_ld, h2.read_unread, h4.read_unread, h5.read_unread,
    View.ld_unit_zero (S := S1x64x32768) hz3, View.ld_unit_zero (S := S64x64) hz2, View.ld_unit_zero (S := S64x1) hz2,
    View.readCov_unit_zero (S := S64x64) _ hz2, View.readCov_unit_zero (S := S64x1) _ hz2]

end Cert.KernelIdeal.Pieces

end
-- ==== Proof.KernelPayloads.lean ====
/-
  The body's arithmetic read at an index, on the extended reals.

  With `a` the 64 × 32768 tile a grid point loads (its leading unit axis dropped):
    * the product step adds to entry `(g, e)` of the accumulator the sum over the tile's columns `k` of
      `a g k * a e k` (the change of float format in front of the matrix product is the identity here, and
      the product into a zero accumulator is the plain sum over the contracted axis);
    * the sum step adds to entry `g` of the column accumulator the sum over `k` of `a g k`;
    * the epilogue turns accumulators `P` (64 × 64) and `S` (64 × 1) into
      `P g e * κ - (S g * κ) * (S e * κ)`, with `κ` the literal `2^-17`;
    * the two reset values are the zero word everywhere.
-/
import proofs.«123525_j25031069401648_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payloads

open Idealize.ShloMosaic Idealize.ShloMosaic.ValueIdx Cert.KernelIdeal Cert.KernelIdeal.Gen

/-- The literal `2^-17` the epilogue multiplies by. -/
abbrev κ : EReal := Ideal.ofBits .f32 0x37000000#32

theorem pay1_apply (j : S64x64.Idx) : k0_pay1 (F := Ideal) j = Ideal.ofBits .f32 0x00000000#32 := rfl

theorem pay2_apply (j : S64x1.Idx) : k0_pay2 (F := Ideal) j = Ideal.ofBits .f32 0x00000000#32 := rfl

/-- The tile with its unit axis dropped. -/
theorem pay3_apply (x0 : Vec Ideal S1x64x32768 .f32) (g : Fin 64) (k : Fin 32768) :
    k0_pay3 x0 (ix2 g k) = x0 (ix3 0 g k) := by
  unfold k0_pay3
  exact shapeCast_apply x0 shapeCasts_S1x64x32768_S64x32768 (ix2 g k) (ix3 0 g k)
    (by rw [Shape.rowMajor_val_three, Shape.rowMajor_val_two]; show ((0 : ℕ) * 64 + g.val) * 32768 + k.val = g.val * 32768 + k.val; omega)

/-! The four axis facts of the matrix product's dimension record: output `(g, e)` and contraction position `q`
    read the left operand at `(g, q)` and the right operand at `(e, q)`. -/

theorem lhs_0 (i : S64x64.Idx) (q : dot_S64x32768_S64x32768_S64x64_1_1_0_0_n_n.contr.Idx) :
    (dot_S64x32768_S64x32768_S64x64_1_1_0_0_n_n.lhsIdx i q 0).val = (i 0).val := by
  unfold DotDims.lhsIdx
  rw [dif_neg (show ¬(0 : Fin S64x32768.rank) ∈ dot_S64x32768_S64x32768_S64x64_1_1_0_0_n_n.lhsBatch by decide), dif_pos (show (0 : Fin S64x32768.rank) ∈ dot_S64x32768_S64x32768_S64x64_1_1_0_0_n_n.lhsNonContracting by decide)]
  rfl
theorem lhs_1 (i : S64x64.Idx) (q : dot_S64x32768_S64x32768_S64x64_1_1_0_0_n_n.contr.Idx) :
    (dot_S64x32768_S64x32768_S64x64_1_1_0_0_n_n.lhsIdx i q 1).val = (q ⟨0, by decide⟩).val :=
  dot_S64x32768_S64x32768_S64x64_1_1_0_0_n_n.lhsIdx_val_of_single rfl i q
theorem rhs_0 (i : S64x64.Idx) (q : dot_S64x32768_S64x32768_S64x64_1_1_0_0_n_n.contr.Idx) :
    (dot_S64x32768_S64x32768_S64x64_1_1_0_0_n_n.rhsIdx i q 0).val = (i 1).val := by
  unfold DotDims.rhsIdx
  rw [dif_neg (show ¬(0 : Fin S64x32768.rank) ∈ dot_S64x32768_S64x32768_S64x64_1_1_0_0_n_n.rhsBatch by decide), dif_pos (show (0 : Fin S64x32768.rank) ∈ dot_S64x32768_S64x32768_S64x64_1_1_0_0_n_n.rhsNonContracting by decide)]
  rfl
theorem rhs_1 (i : S64x64.Idx) (q : dot_S64x32768_S64x32768_S64x64_1_1_0_0_n_n.contr.Idx) :
    (dot_S64x32768_S64x32768_S64x64_1_1_0_0_n_n.rhsIdx i q 1).val = (q ⟨0, by decide⟩).val :=
  dot_S64x32768_S64x32768_S64x64_1_1_0_0_n_n.rhsIdx_val_of_single rfl i q

/-- The matrix product of the tile with itself, into zero, at `(g, e)`. -/
theorem gram_apply (a : FVec Ideal S64x32768 .bf16) (g e : Fin 64) :
    matmul dot_S64x32768_S64x32768_S64x64_1_1_0_0_n_n none a a (constant S64x64 .f32 0x00000000#32) (ix2 g e)
      = ∑ k : Fin 32768, a (ix2 g k) * a (ix2 e k) := by
  simp only [matmul]
  rw [Ideal.matmul_constant_zero_apply, ← Equiv.sum_comp (contrEquiv1 dot_S64x32768_S64x32768_S64x64_1_1_0_0_n_n 32768 rfl rfl).symm]
  refine Finset.sum_congr rfl fun k _ => ?_
  have hk := contrEquiv1_symm_val dot_S64x32768_S64x32768_S64x64_1_1_0_0_n_n 32768 rfl rfl k
  have el : dot_S64x32768_S64x32768_S64x64_1_1_0_0_n_n.lhsIdx (ix2 g e) ((contrEquiv1 dot_S64x32768_S64x32768_S64x64_1_1_0_0_n_n 32768 rfl rfl).symm k) = ix2 g k := funext fun a => Fin.ext (by
    match a with
    | ⟨0, _⟩ => exact lhs_0 _ _
    | ⟨1, _⟩ => exact (lhs_1 _ _).trans hk)
  have er : dot_S64x32768_S64x32768_S64x64_1_1_0_0_n_n.rhsIdx (ix2 g e) ((contrEquiv1 dot_S64x32768_S64x32768_S64x64_1_1_0_0_n_n 32768 rfl rfl).symm k) = ix2 e k := funext fun a => Fin.ext (by
    match a with
    | ⟨0, _⟩ => exact rhs_0 _ _
    | ⟨1, _⟩ => exact (rhs_1 _ _).trans hk)
  rw [el, er]

/-- The product step at `(g, e)`. -/
theorem pay4_apply (x0 : Vec Ideal S1x64x32768 .f32) (v7 : Vec Ideal S64x64 .f32) (g e : Fin 64) :
    k0_pay4 x0 v7 (ix2 g e) = v7 (ix2 g e) + ∑ k : Fin 32768, x0 (ix3 0 g k) * x0 (ix3 0 e k) := by
  unfold k0_pay4
  refine (congrFun (shapeCast_self _ _) (ix2 g e)).trans ?_
  refine congrArg (v7 (ix2 g e) + ·) ?_
  refine (gram_apply _ g e).trans ?_
  refine Finset.sum_congr rfl fun k _ => ?_
  show k0_pay3 x0 (ix2 g k) * k0_pay3 x0 (ix2 e k) = _
  rw [pay3_apply, pay3_apply]

/-- The sum step at `g`. -/
theorem pay5_apply (x0 : Vec Ideal S1x64x32768 .f32) (v12 : Vec Ideal S64x1 .f32) (g : Fin 64) :
    k0_pay5 x0 v12 (ix2 g 0) = v12 (ix2 g 0) + ∑ k : Fin 32768, x0 (ix3 0 g k) := by
  unfold k0_pay5
  refine (congrFun (shapeCast_self _ _) (ix2 g 0)).trans ?_
  refine congrArg (v12 (ix2 g 0) + ·) ?_
  refine (shapeCast_apply _ shapeCasts_S64_S64x1 (ix2 g 0) (ix1 g)
    (by rw [Shape.rowMajor_val_one, Shape.rowMajor_val_two]; show g.val = g.val * 1 + 0; omega)).trans ?_
  refine (Ideal.multiReduction_add_single (k0_pay3 x0) _ reduces_S64x32768_S64 _ _ (ix1 g)).trans ?_
  refine Finset.sum_congr rfl fun k _ => ?_
  refine Eq.trans (congrArg (k0_pay3 x0) ?_) (pay3_apply x0 g k)
  funext a
  match a with
  | ⟨0, _⟩ => rfl
  | ⟨1, _⟩ => rfl

/-- The epilogue at `(g, e)`. -/
theorem pay6_apply (v22 : Vec Ideal S64x1 .f32) (v29 : Vec Ideal S64x64 .f32) (g e : Fin 64) :
    k0_pay6 v22 v29 (ix3 0 g e) = v29 (ix2 g e) * κ - (v22 (ix2 g 0) * κ) * (v22 (ix2 e 0) * κ) := by
  unfold k0_pay6
  refine (shapeCast_apply _ shapeCasts_S64x64_S1x64x64 (ix3 0 g e) (ix2 g e)
    (by rw [Shape.rowMajor_val_two, Shape.rowMajor_val_three]; show g.val * 64 + e.val = ((0 : ℕ) * 64 + g.val) * 64 + e.val; omega)).trans ?_
  have e1 := broadcastTo_apply (mulf (F := Ideal) v22 (broadcast S64x1 (Scalar.ofBits .f32 0x37000000#32)))
    broadcasts_S64x1_S64x64 (ix2 g e) (ix2 g 0) (fun a => by
      match a with
      | ⟨0, _⟩ => show g.val = if (64 : ℕ) = 1 then 0 else g.val; rw [if_neg (by decide)]
      | ⟨1, _⟩ => show (0 : ℕ) = if (1 : ℕ) = 1 then 0 else e.val; rw [if_pos rfl])
  have e2 := broadcastTo_apply (transpose S1x64 [1, 0] (mulf (F := Ideal) v22 (broadcast S64x1 (Scalar.ofBits .f32 0x37000000#32)))
      transposes_S64x1_p1_0_S1x64) broadcasts_S1x64_S64x64 (ix2 g e) (ix2 0 e) (fun a => by
      match a with
      | ⟨0, _⟩ => show (0 : ℕ) = if (1 : ℕ) = 1 then 0 else g.val; rw [if_pos rfl]
      | ⟨1, _⟩ => show e.val = if (64 : ℕ) = 1 then 0 else e.val; rw [if_neg (by decide)])
  have e3 := transpose_apply [1, 0] (mulf (F := Ideal) v22 (broadcast S64x1 (Scalar.ofBits .f32 0x37000000#32)))
    transposes_S64x1_p1_0_S1x64 (ix2 0 e) (ix2 e 0) (fun b => by
      match b with
      | ⟨0, _⟩ => rfl
      | ⟨1, _⟩ => rfl)
  exact congrArg₂ (fun a b : EReal => v29 (ix2 g e) * κ - a * b) e1 (e2.trans e3)

end Cert.KernelIdeal.Payloads

end
-- ==== Proof.CovAlgebra.lean ====
/-
  The algebra of the covariance identity, over abstract finite index types and free of any program.

  For real sequences `f`, `g` over a finite type of `N` elements, with means `μf = (∑ f) / N` and `μg`,
      (∑ i, (f i - μf) * (g i - μg)) / N  =  (∑ i, f i * g i) / N - μf * μg,
  because `∑ (f - μf) (g - μg) = ∑ f g - μg ∑ f - μf ∑ g + N μf μg` and `∑ f = N μf`. The identity needs
  the entries to be real (it distributes a product over a sum and cancels), so it is stated for
  real-valued sequences read as extended reals; a division by the nonzero real `N` is the product with
  `1 / N` on every extended real.

  Beside it: the sum over an axis of `4 * 32768` entries cut into four consecutive tiles, and the
  permutation of that axis which sends the position `(h, w, c)` of a row-major `64 × 64 × 32` box to the
  position `(c, h, w)` of the row-major `32 × 64 × 64` box.
-/
import Idealize.ShloMosaic.PureOps.Ideal
import Mathlib.Algebra.BigOperators.Fin
import Mathlib.Logic.Equiv.Fin.Basic
import Mathlib.Tactic.Ring
import Mathlib.Tactic.FieldSimp

noncomputable section

namespace Cert.CovAlgebra

open Idealize.ShloMosaic

/-- The coercion of reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The covariance identity over the reals. -/
theorem cov_real {ι : Type*} [Fintype ι] (f g : ι → ℝ) (N : ℝ) (hN : N ≠ 0)
    (hcard : (Fintype.card ι : ℝ) = N) :
    (∑ i, (f i - (∑ j, f j) * (1 / N)) * (g i - (∑ j, g j) * (1 / N))) * (1 / N)
      = (∑ i, f i * g i) * (1 / N) - ((∑ i, f i) * (1 / N)) * ((∑ i, g i) * (1 / N)) := by
  have h : ∀ a b : ℝ, ∑ i, (f i - a) * (g i - b)
      = ∑ i, f i * g i - b * ∑ i, f i - a * ∑ i, g i + N * (a * b) := by
    intro a b
    have e : ∀ i, (f i - a) * (g i - b) = f i * g i - b * f i - a * g i + a * b := fun i => by ring
    simp only [e, Finset.sum_add_distrib, Finset.sum_sub_distrib, ← Finset.mul_sum, Finset.sum_const,
      Finset.card_univ, nsmul_eq_mul, hcard]
    ring
  rw [h]
  field_simp
  ring

/-- The covariance identity on the extended reals, for real-valued sequences: the mean-centred sum of
    products divided by `N` is the raw second moment times `1 / N` minus the product of the two means,
    each mean a sum times `1 / N`. -/
theorem cov_law {ι : Type*} [Fintype ι] (f g : ι → ℝ) (N : ℝ) (hN : N ≠ 0)
    (hcard : (Fintype.card ι : ℝ) = N) :
    Ideal.div (∑ i, ((f i : EReal) - Ideal.div (0 + ∑ j, (f j : EReal)) (N : EReal))
        * ((g i : EReal) - Ideal.div (0 + ∑ j, (g j : EReal)) (N : EReal))) (N : EReal)
      = (∑ i, (f i : EReal) * (g i : EReal)) * ((1 / N : ℝ) : EReal)
        - ((∑ i, (f i : EReal)) * ((1 / N : ℝ) : EReal)) * ((∑ i, (g i : EReal)) * ((1 / N : ℝ) : EReal)) := by
  rw [Ideal.div_coe hN, Ideal.div_coe hN, Ideal.div_coe hN, zero_add, zero_add]
  simp only [← coe_sum, ← EReal.coe_mul, ← EReal.coe_sub]
  exact congrArg _ (cov_real f g N hN hcard)

/-- A sum over `4 * 32768` consecutive positions, tile by tile. -/
theorem sum_tiles {M : Type*} [AddCommMonoid M] (F : Fin 131072 → M) :
    ∑ s : Fin 4, ∑ k : Fin 32768,
        F ⟨s.val * 32768 + k.val, by have := s.isLt; have := k.isLt; omega⟩ = ∑ n, F n := by
  have h := Equiv.sum_comp (finProdFinEquiv (m := 4) (n := 32768)) (fun n : Fin (4 * 32768) => F n)
  rw [Fintype.sum_prod_type] at h
  refine Eq.trans ?_ h
  refine Finset.sum_congr rfl fun s _ => Finset.sum_congr rfl fun k _ => congrArg F (Fin.ext ?_)
  rw [finProdFinEquiv_apply_val]
  show s.val * 32768 + k.val = k.val + 32768 * s.val
  omega

/-- Positions of the two boxes, taken apart and put together: the coordinates of `c * 4096 + h * 64 + w`, -/
theorem split_chw (c h w : ℕ) (hc : c < 32) (hh : h < 64) (hw : w < 64) :
    (c * 4096 + h * 64 + w) / 64 % 64 = h ∧ (c * 4096 + h * 64 + w) % 64 = w
      ∧ (c * 4096 + h * 64 + w) / 4096 = c := by
  refine ⟨?_, ?_, ?_⟩ <;> omega

/-- those of `h * 2048 + w * 32 + c`, -/
theorem split_hwc (h w c : ℕ) (hh : h < 64) (hw : w < 64) (hc : c < 32) :
    (h * 2048 + w * 32 + c) % 32 = c ∧ (h * 2048 + w * 32 + c) / 2048 = h
      ∧ (h * 2048 + w * 32 + c) / 32 % 64 = w := by
  refine ⟨?_, ?_, ?_⟩ <;> omega

/-- and a position from its coordinates, in either box. -/
theorem join_hwc (n : ℕ) : n / 2048 * 2048 + n / 32 % 64 * 32 + n % 32 = n := by
  have := Nat.div_div_eq_div_mul n 32 64; omega

theorem join_chw (n : ℕ) : n / 4096 * 4096 + n / 64 % 64 * 64 + n % 64 = n := by
  have := Nat.div_div_eq_div_mul n 64 64; omega

/-- The position of `(h, w, c)` in the row-major `64 × 64 × 32` box, sent to the position of `(c, h, w)` in the
    row-major `32 × 64 × 64` box: a permutation of the `131072` positions. -/
def relayout : Fin 131072 ≃ Fin 131072 where
  toFun n := ⟨n.val % 32 * 4096 + n.val / 2048 * 64 + n.val / 32 % 64, by have := n.isLt; omega⟩
  invFun n := ⟨n.val / 64 % 64 * 2048 + n.val % 64 * 32 + n.val / 4096, by have := n.isLt; omega⟩
  left_inv n := Fin.ext (by
    have hn := n.isLt
    obtain ⟨e1, e2, e3⟩ := split_chw (n.val % 32) (n.val / 2048) (n.val / 32 % 64)
      (Nat.mod_lt _ (by norm_num)) (by omega) (Nat.mod_lt _ (by norm_num))
    show (n.val % 32 * 4096 + n.val / 2048 * 64 + n.val / 32 % 64) / 64 % 64 * 2048
        + (n.val % 32 * 4096 + n.val / 2048 * 64 + n.val / 32 % 64) % 64 * 32
        + (n.val % 32 * 4096 + n.val / 2048 * 64 + n.val / 32 % 64) / 4096 = n.val
    rw [e1, e2, e3]; exact join_hwc n.val)
  right_inv n := Fin.ext (by
    have hn := n.isLt
    obtain ⟨e1, e2, e3⟩ := split_hwc (n.val / 64 % 64) (n.val % 64) (n.val / 4096)
      (Nat.mod_lt _ (by norm_num)) (Nat.mod_lt _ (by norm_num)) (by omega)
    show (n.val / 64 % 64 * 2048 + n.val % 64 * 32 + n.val / 4096) % 32 * 4096
        + (n.val / 64 % 64 * 2048 + n.val % 64 * 32 + n.val / 4096) / 2048 * 64
        + (n.val / 64 % 64 * 2048 + n.val % 64 * 32 + n.val / 4096) / 32 % 64 = n.val
    rw [e1, e2, e3]; exact join_chw n.val)

theorem relayout_val (n : Fin 131072) :
    (relayout n).val = n.val % 32 * 4096 + n.val / 2048 * 64 + n.val / 32 % 64 := rfl

end Cert.CovAlgebra

end
-- ==== Proof.Consts.lean ====
/-
  The three float literals the two programs spell, as the extended reals their patterns denote:
  the zero word, the reference's divisor 131072 = 2^17 (the length of the reduced axis), and the
  kernel's factor 2^-17, which is exactly the reciprocal of that divisor (a power of two, so no
  rounding separates the two).
-/
import Idealize.ShloMosaic.PureOps.Ideal

noncomputable section

namespace Cert.Consts

open Idealize.ShloMosaic

/-- The word `0x48000000` denotes the real `131072`. -/
theorem ofBits_n : Ideal.ofBits .f32 0x48000000#32 = ((131072 : ℝ) : EReal) := by
  simp [Ideal.ofBits, Ideal.ieee, -EReal.coe_mul]; norm_num

/-- The word `0x37000000` denotes the real `1 / 131072`. -/
theorem ofBits_inv_n : Ideal.ofBits .f32 0x37000000#32 = ((1 / 131072 : ℝ) : EReal) := by
  simp [Ideal.ofBits, Ideal.ieee, -EReal.coe_mul]; norm_num

/-- The zero word denotes `0`. -/
theorem ofBits_zero : Ideal.ofBits .f32 0x00000000#32 = 0 := by
  simp [Ideal.ofBits, Ideal.ieee]

end Cert.Consts

end
-- ==== Proof.Spec.lean ====
/-
  The function both programs compute, stated once over the input with its three trailing axes merged.

  For `y` of shape 8 × 64 × 131072 (batch, row, position) the result at `(b, g, e)` is
      (∑ n, y b g n * y b e n) * κ - ((∑ n, y b g n) * κ) * ((∑ n, y b e n) * κ),    κ = 2^-17 = 1 / 131072,
  the raw second moment of rows `g` and `e` minus the product of their means: the covariance of the two rows
  over the 131072 positions of batch `b`.
-/
import Idealize.ShloMosaic.Lib.ValueIdx

noncomputable section

namespace Cert.Spec

open Idealize.ShloMosaic Idealize.ShloMosaic.ValueIdx

/-- The literal `2^-17`, kept as its word. -/
abbrev κ : EReal := Ideal.ofBits .f32 0x37000000#32

/-- The covariance of rows `g` and `e` of batch `b`. -/
def cov (y : (⟨3, ![8, 64, 131072]⟩ : Shape).Idx → EReal) : (⟨3, ![8, 64, 64]⟩ : Shape).Idx → EReal := fun j =>
  (∑ n : Fin 131072, y (ix3 (j 0) (j 1) n) * y (ix3 (j 0) (j 2) n)) * κ
    - ((∑ n : Fin 131072, y (ix3 (j 0) (j 1) n)) * κ) * ((∑ n : Fin 131072, y (ix3 (j 0) (j 2) n)) * κ)

theorem cov_apply (y : (⟨3, ![8, 64, 131072]⟩ : Shape).Idx → EReal) (b : Fin 8) (g e : Fin 64) :
    cov y (ix3 b g e) = (∑ n : Fin 131072, y (ix3 b g n) * y (ix3 b e n)) * κ
      - ((∑ n : Fin 131072, y (ix3 b g n)) * κ) * ((∑ n : Fin 131072, y (ix3 b e n)) * κ) := rfl

end Cert.Spec

end
-- ==== Proof.KernelValue.lean ====
/-
  The kernel's result array, at the extended reals, is the covariance `Spec.cov` of the merged input.

  The grid is 8 batches × 4 tiles. Point `t` loads tile `t % 4` of batch `t / 4`: rows `g`, positions
  `(t % 4) * 32768 + k`. Within a batch the two accumulators are a fold over the four tiles from a zero
  reset: after the last tile the product accumulator holds at `(g, e)` the sum over all 131072 positions of
  `y b g n * y b e n`, and the sum accumulator holds at `g` the sum of `y b g n` (four tile sums in order,
  which is the sum over the whole axis). The last tile's epilogue turns them into the covariance, and the
  output block of batch `b`, written back once at point `4 b + 3`, is rows `b` of the result; the eight
  write-backs cover the result array.
-/
import proofs.«123525_j25031069401648_1_alg».proof.Proof.KernelPieces
import proofs.«123525_j25031069401648_1_alg».proof.Proof.KernelPayloads
import proofs.«123525_j25031069401648_1_alg».proof.Proof.CovAlgebra
import proofs.«123525_j25031069401648_1_alg».proof.Proof.Consts
import proofs.«123525_j25031069401648_1_alg».proof.Proof.Spec
import Idealize.ShloMosaic.Lib.StableHlo.Run

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.KernelIdeal.Value Cert.KernelIdeal.Pieces Cert.KernelIdeal.Payloads
open Idealize.ShloMosaic.ValueIdx

variable (m : (ℓ : Loc nD τ sig) → Buf (Elt Ideal) ℓ) (ρ : Dev nD → PrngReg)

/-- The tile point `t` loads, and the merged input as the region finds it, at their literal types. -/
abbrev tile (c : Dev nD) (t : Fin cfg0.N) : Vec Ideal S1x64x32768 .f32 := iblk m c 0 t
abbrev arr (c : Dev nD) : Vec Ideal S8x64x131072 .f32 := V m c main_v0

/-- The merged input is the reshape of the argument. -/
theorem arr_eq (c : Dev nD) : arr m c
    = shapeCast S8x64x131072 (m ((c : Thread nD τ).loc main_arg0)) shapeCasts_S8x64x32x64x64_S8x64x131072 := by
  dsimp only [arr, Gen.V, Gen.hostOps0]
  after_results
  rfl

/-- The block indices of the two windows, decided over the grid: batch `t / 4`, all rows, tile `t % 4`;
    and batch `t / 4`, the whole 64 × 64 block. -/
theorem idx_facts : ∀ t : Fin cfg0.N, win0_0.index t (0 : Fin 3) = t.val / 4 ∧ win0_0.index t (1 : Fin 3) = 0
    ∧ win0_0.index t (2 : Fin 3) = t.val % 4 ∧ win0_1.index t (0 : Fin 3) = t.val / 4
    ∧ win0_1.index t (1 : Fin 3) = 0 ∧ win0_1.index t (2 : Fin 3) = 0 :=
  (by decide +kernel : ∀ t : Fin grid0.N, _)

/-- Entry `(g, k)` of the tile at point `t` is entry `(t / 4, g, (t % 4) * 32768 + k)` of the merged input. -/
theorem tile_apply (c : Dev nD) (t : Fin cfg0.N) (g : Fin 64) (k : Fin 32768) :
    tile m c t (ix3 0 g k) = arr m c (ix3 ⟨t.val / 4, by have := lt_of_lt_of_eq t.isLt (show cfg0.N = 32 from N_0); omega⟩ g
      ⟨t.val % 4 * 32768 + k.val, by have := k.isLt; omega⟩) := by
  obtain ⟨e0, e1, e2, -, -, -⟩ := idx_facts t
  show ((cfg0.win 0).blk t).view.read (Elt Ideal) (V m c (Pipeline.arrRef spec0 0)) (ix3 0 g k) = _
  rw [View.read_apply]
  show V m c main_v0 _ = V m c main_v0 _
  congr 1
  funext a
  apply Fin.ext
  match a with
  | ⟨0, _⟩ => show win0_0.index t (0 : Fin 3) * 1 + 1 * 0 = t.val / 4; rw [e0]; omega
  | ⟨1, _⟩ => show win0_0.index t (1 : Fin 3) * 64 + 1 * g.val = g.val; rw [e1]; omega
  | ⟨2, _⟩ => show win0_0.index t (2 : Fin 3) * 32768 + 1 * k.val = t.val % 4 * 32768 + k.val; rw [e2]; omega

/-! ## One step of each accumulator -/

/-- At the first tile of a batch the product accumulator restarts from zero, -/
theorem xtx_step_first (c : Dev nD) (n : ℕ) (hb : n < cfg0.N) (h0 : n % 4 = 0) (acc : Vec Ideal S64x64 .f32) :
    scAt0_0 m c n hb acc = k0_pay4 (tile m c ⟨n, hb⟩) (k0_pay1 (F := Ideal)) := by
  have h1 : ¬n % 4 = 3 := by omega
  unfold scAt0_0
  rw [dif_pos h0, dif_neg h1]
  exact xtx_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N))

/-- and at every other tile it takes the tile's products on top of what it held. -/
theorem xtx_step_later (c : Dev nD) (n : ℕ) (hb : n < cfg0.N) (h0 : ¬n % 4 = 0) (acc : Vec Ideal S64x64 .f32) :
    scAt0_0 m c n hb acc = k0_pay4 (tile m c ⟨n, hb⟩) acc := by
  unfold scAt0_0
  rw [dif_neg h0]
  by_cases h1 : n % 4 = 3
  · rw [dif_pos h1]
    exact xtx_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2
  · rw [dif_neg h1]
    exact xtx_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2

/-- The sum accumulator likewise: a restart from zero at the first tile, -/
theorem sum_step_first (c : Dev nD) (n : ℕ) (hb : n < cfg0.N) (h0 : n % 4 = 0) (acc : Vec Ideal S64x1 .f32) :
    scAt0_1 m c n hb acc = k0_pay5 (tile m c ⟨n, hb⟩) (k0_pay2 (F := Ideal)) := by
  have h1 : ¬n % 4 = 3 := by omega
  unfold scAt0_1
  rw [dif_pos h0, dif_neg h1]
  exact sum_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N))

/-- the tile's row sums on top of what it held elsewhere. -/
theorem sum_step_later (c : Dev nD) (n : ℕ) (hb : n < cfg0.N) (h0 : ¬n % 4 = 0) (acc : Vec Ideal S64x1 .f32) :
    scAt0_1 m c n hb acc = k0_pay5 (tile m c ⟨n, hb⟩) acc := by
  unfold scAt0_1
  rw [dif_neg h0]
  by_cases h1 : n % 4 = 3
  · rw [dif_pos h1]
    exact sum_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
  · rw [dif_neg h1]
    exact sum_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc

/-! ## The accumulators as folds over a batch's tiles -/

/-- What tile `n` adds to the product accumulator at `(g, e)`: the sum over the tile's columns of the products. -/
def xtxAdd (c : Dev nD) (n : ℕ) (i : S64x64.Idx) : EReal :=
  if h : n < cfg0.N then ∑ k : Fin 32768, tile m c ⟨n, h⟩ (ix3 0 (i 0) k) * tile m c ⟨n, h⟩ (ix3 0 (i 1) k) else 0

/-- What tile `n` adds to the sum accumulator at `g`: the sum over the tile's columns. -/
def sumAdd (c : Dev nD) (n : ℕ) (i : S64x1.Idx) : EReal :=
  if h : n < cfg0.N then ∑ k : Fin 32768, tile m c ⟨n, h⟩ (ix3 0 (i 0) k) else 0

/-- After point `t` the product accumulator is the zero word plus the additions of the batch's tiles so far. -/
theorem xtx_fold (c : Dev nD) (t : Fin cfg0.N) (i : S64x64.Idx) :
    (outsAt0 m c t.val t.isLt).2.1 i
      = Ideal.ofBits .f32 0x00000000#32 + ∑ s ∈ Finset.range (t.val % 4 + 1), xtxAdd m c (4 * (t.val / 4) + s) i := by
  rw [soutsAt0_0_eq m c t]
  refine Pipeline.accAt_add_apply (ι := S64x64.Idx) (β := EReal)
    (fun n h => scAt0_0 m c n h (VS0_0.read (Elt Ideal) VS0_0.junk)) (scAt0_0 m c)
    (fun _ => Ideal.ofBits .f32 0x00000000#32) (xtxAdd m c) (4 * (t.val / 4)) 3 ?_ ?_ (t.val % 4) (by omega) _ i
  · intro h j
    obtain ⟨g, e, rfl⟩ : ∃ g e, j = ix2 g e := ⟨j 0, j 1, eq_ix2 j⟩
    show scAt0_0 m c (4 * (t.val / 4)) h _ (ix2 g e) = _
    rw [xtx_step_first m c _ h (Nat.mul_mod_right 4 _), pay4_apply, pay1_apply]
    unfold xtxAdd
    rw [dif_pos h]
  · intro n h acc j hlt hle
    obtain ⟨g, e, rfl⟩ : ∃ g e, j = ix2 g e := ⟨j 0, j 1, eq_ix2 j⟩
    rw [xtx_step_later m c n h (by omega), pay4_apply]
    unfold xtxAdd
    rw [dif_pos h]

/-- After point `t` the sum accumulator is the zero word plus the additions of the batch's tiles so far. -/
theorem sum_fold (c : Dev nD) (t : Fin cfg0.N) (i : S64x1.Idx) :
    (outsAt0 m c t.val t.isLt).2.2 i
      = Ideal.ofBits .f32 0x00000000#32 + ∑ s ∈ Finset.range (t.val % 4 + 1), sumAdd m c (4 * (t.val / 4) + s) i := by
  rw [soutsAt0_1_eq m c t]
  refine Pipeline.accAt_add_apply (ι := S64x1.Idx) (β := EReal)
    (fun n h => scAt0_1 m c n h (VS0_1.read (Elt Ideal) VS0_1.junk)) (scAt0_1 m c)
    (fun _ => Ideal.ofBits .f32 0x00000000#32) (sumAdd m c) (4 * (t.val / 4)) 3 ?_ ?_ (t.val % 4) (by omega) _ i
  · intro h j
    obtain ⟨g, z, rfl⟩ : ∃ (g : Fin 64) (z : Fin 1), j = ix2 g z := ⟨j 0, j 1, eq_ix2 j⟩
    obtain rfl : z = 0 := Subsingleton.elim _ _
    show scAt0_1 m c (4 * (t.val / 4)) h _ (ix2 g 0) = _
    rw [sum_step_first m c _ h (Nat.mul_mod_right 4 _), pay5_apply, pay2_apply]
    unfold sumAdd
    rw [dif_pos h]
  · intro n h acc j hlt hle
    obtain ⟨g, z, rfl⟩ : ∃ (g : Fin 64) (z : Fin 1), j = ix2 g z := ⟨j 0, j 1, eq_ix2 j⟩
    obtain rfl : z = 0 := Subsingleton.elim _ _
    rw [sum_step_later m c n h (by omega), pay5_apply]
    unfold sumAdd
    rw [dif_pos h]

/-- Two entries of the merged input at equal coordinates. -/
theorem arr_congr (c : Dev nD) {b b' : Fin 8} {n n' : Fin 131072} (hb : b.val = b'.val) (hn : n.val = n'.val) (g : Fin 64) :
    arr m c (ix3 b g n) = arr m c (ix3 b' g n') := by
  obtain rfl := Fin.ext hb
  obtain rfl := Fin.ext hn
  rfl

/-- Tile `s` of batch `t / 4`, entry `(g, k)`: position `s * 32768 + k` of row `g` of that batch. -/
theorem tile_in_batch (c : Dev nD) (t : Fin cfg0.N) (s : Fin 4) (hs : 4 * (t.val / 4) + s.val < cfg0.N) (g : Fin 64) (k : Fin 32768) :
    tile m c ⟨4 * (t.val / 4) + s.val, hs⟩ (ix3 0 g k)
      = arr m c (ix3 ⟨t.val / 4, by have := lt_of_lt_of_eq t.isLt (show cfg0.N = 32 from N_0); omega⟩ g ⟨s.val * 32768 + k.val, by have := s.isLt; have := k.isLt; omega⟩) := by
  rw [tile_apply]
  exact arr_congr m c (by show (4 * (t.val / 4) + s.val) / 4 = t.val / 4; have := s.isLt; omega)
    (by show (4 * (t.val / 4) + s.val) % 4 * 32768 + k.val = s.val * 32768 + k.val; have := s.isLt; omega) g

/-- After the last tile of a batch the product accumulator holds the sums of products over the whole axis, -/
theorem xtx_whole (c : Dev nD) (t : Fin cfg0.N) (h1 : t.val % 4 = 3) (g e : Fin 64) :
    (outsAt0 m c t.val t.isLt).2.1 (ix2 g e)
      = ∑ n : Fin 131072, arr m c (ix3 ⟨t.val / 4, by have := lt_of_lt_of_eq t.isLt (show cfg0.N = 32 from N_0); omega⟩ g n) * arr m c (ix3 ⟨t.val / 4, by have := lt_of_lt_of_eq t.isLt (show cfg0.N = 32 from N_0); omega⟩ e n) := by
  have hN : t.val < 32 := lt_of_lt_of_eq t.isLt (show cfg0.N = 32 from N_0)
  rw [xtx_fold, h1, Consts.ofBits_zero, zero_add, Finset.sum_range,
    ← CovAlgebra.sum_tiles (fun n => arr m c (ix3 ⟨t.val / 4, by have := lt_of_lt_of_eq t.isLt (show cfg0.N = 32 from N_0); omega⟩ g n) * arr m c (ix3 ⟨t.val / 4, by have := lt_of_lt_of_eq t.isLt (show cfg0.N = 32 from N_0); omega⟩ e n))]
  refine Finset.sum_congr rfl fun s _ => ?_
  have hs : 4 * (t.val / 4) + s.val < cfg0.N :=
    lt_of_lt_of_eq (by have := s.isLt; omega : 4 * (t.val / 4) + s.val < 32) (show (32 : ℕ) = cfg0.N from N_0.symm)
  unfold xtxAdd
  rw [dif_pos hs]
  refine Finset.sum_congr rfl fun k _ => ?_
  show tile m c ⟨4 * (t.val / 4) + s.val, hs⟩ (ix3 0 g k) * tile m c ⟨4 * (t.val / 4) + s.val, hs⟩ (ix3 0 e k) = _
  rw [tile_in_batch, tile_in_batch]

/-- and the sum accumulator the row sums over the whole axis. -/
theorem sum_whole (c : Dev nD) (t : Fin cfg0.N) (h1 : t.val % 4 = 3) (g : Fin 64) :
    (outsAt0 m c t.val t.isLt).2.2 (ix2 g 0) = ∑ n : Fin 131072, arr m c (ix3 ⟨t.val / 4, by have := lt_of_lt_of_eq t.isLt (show cfg0.N = 32 from N_0); omega⟩ g n) := by
  have hN : t.val < 32 := lt_of_lt_of_eq t.isLt (show cfg0.N = 32 from N_0)
  rw [sum_fold, h1, Consts.ofBits_zero, zero_add, Finset.sum_range,
    ← CovAlgebra.sum_tiles (fun n => arr m c (ix3 ⟨t.val / 4, by have := lt_of_lt_of_eq t.isLt (show cfg0.N = 32 from N_0); omega⟩ g n))]
  refine Finset.sum_congr rfl fun s _ => ?_
  have hs : 4 * (t.val / 4) + s.val < cfg0.N :=
    lt_of_lt_of_eq (by have := s.isLt; omega : 4 * (t.val / 4) + s.val < 32) (show (32 : ℕ) = cfg0.N from N_0.symm)
  unfold sumAdd
  rw [dif_pos hs]
  refine Finset.sum_congr rfl fun k _ => ?_
  show tile m c ⟨4 * (t.val / 4) + s.val, hs⟩ (ix3 0 g k) = _
  rw [tile_in_batch]

/-! ## The output block and the result array -/

/-- At the last tile of a batch the output block is the epilogue's arithmetic of the two accumulators as that
    point leaves them. -/
theorem out_at_last (c : Dev nD) (t : Fin cfg0.N) (h0 : ¬t.val % 4 = 0) (h1 : t.val % 4 = 3) :
    (outsAt0 m c t.val t.isLt).1 = k0_pay6 (outsAt0 m c t.val t.isLt).2.2 (outsAt0 m c t.val t.isLt).2.1 := by
  rw [outsAt0_C m c t h0 h1]
  dsimp only
  rw [out_last, xtx_last, sum_last]

/-- So entry `(g, e)` of that block is the covariance of rows `g` and `e` of batch `t / 4`. -/
theorem out_block_apply (c : Dev nD) (t : Fin cfg0.N) (h0 : ¬t.val % 4 = 0) (h1 : t.val % 4 = 3) (g e : Fin 64) :
    (outsAt0 m c t.val t.isLt).1 (ix3 0 g e) = Spec.cov (arr m c) (ix3 ⟨t.val / 4, by have := lt_of_lt_of_eq t.isLt (show cfg0.N = 32 from N_0); omega⟩ g e) := by
  rw [out_at_last m c t h0 h1, pay6_apply, xtx_whole m c t h1, sum_whole m c t h1, sum_whole m c t h1, Spec.cov_apply]

/-- What a write-back writes is its block of the covariance. -/
theorem flushed_eq (c : Dev nD) (t : Fin cfg0.N) (hf : (cfg0.win 1).flush t = true) :
    (dats m 0 c).flushed 1 t = ((cfg0.win 1).blk t).view.read (Elt Ideal) (Spec.cov (arr m c)) := by
  have h1 : t.val % 4 = 3 := (flush0_1 t).mp hf
  have h0 : ¬t.val % 4 = 0 := by omega
  obtain ⟨-, -, -, e0, e1, e2⟩ := idx_facts t
  rw [flushed1]
  funext y
  obtain ⟨z, g, e, rfl⟩ : ∃ (z : Fin 1) (g e : Fin 64), y = ix3 z g e := ⟨y 0, y 1, y 2, eq_ix3 y⟩
  obtain rfl : z = 0 := Subsingleton.elim _ _
  show (outsAt0 m c t.val t.isLt).1 (ix3 0 g e) = Spec.cov (arr m c) (((cfg0.win 1).blk t).view.emb (ix3 0 g e))
  rw [out_block_apply m c t h0 h1]
  congr 1
  funext a
  apply Fin.ext
  match a with
  | ⟨0, _⟩ => show t.val / 4 = win0_1.index t (0 : Fin 3) * 1 + 1 * 0; rw [e0]; omega
  | ⟨1, _⟩ => show g.val = win0_1.index t (1 : Fin 3) * 64 + 1 * g.val; rw [e1]; omega
  | ⟨2, _⟩ => show e.val = win0_1.index t (2 : Fin 3) * 64 + 1 * e.val; rw [e2]; omega

/-- Every entry `(b, g, e)` of the result lies in the block written back at point `4 b + 3`. -/
theorem cover (i : S8x64x64.Idx) :
    ∃ t : Fin cfg0.N, (cfg0.win 1).flush t = true ∧ i ∈ ((cfg0.win 1).blk t).view.set := by
  have hb : (i 0).val < 8 := (i 0).isLt
  have hg : (i 1).val < 64 := (i 1).isLt
  have he : (i 2).val < 64 := (i 2).isLt
  obtain ⟨t, ht⟩ : ∃ t : Fin cfg0.N, t.val = 4 * (i 0).val + 3 :=
    ⟨⟨4 * (i 0).val + 3, lt_of_lt_of_eq (by omega : 4 * (i 0).val + 3 < 32) (show (32 : ℕ) = cfg0.N from N_0.symm)⟩, rfl⟩
  obtain ⟨-, -, -, e0, e1, e2⟩ := idx_facts t
  refine ⟨t, (flush0_1 t).mpr (by omega), ?_⟩
  show i ∈ ((View.whole main_v1).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1; rw [e0]; omega
  | ⟨1, _⟩ => show win0_1.index t (1 : Fin 3) * 64 ≤ (i 1).val ∧ (i 1).val < win0_1.index t (1 : Fin 3) * 64 + 64; rw [e1]; omega
  | ⟨2, _⟩ => show win0_1.index t (2 : Fin 3) * 64 ≤ (i 2).val ∧ (i 2).val < win0_1.index t (2 : Fin 3) * 64 + 64; rw [e2]; omega

/-- The result array after the run is the covariance of the merged input. -/
theorem final (c : Dev nD) : (dats m 0 c).arrAt 1 cfg0.N = Spec.cov (arr m c) :=
  (dats m 0 c).arrAt_eq_of_cover 1 (Spec.cov (arr m c)) (flushed_eq m c) cover

/-- The kernel's run: it terminates with the result at the covariance of the reshaped argument, the argument
    unchanged. -/
theorem run : θ_run defs (onTc (τ := τ) (main (F := Ideal))) ⟨m, fun _ => 0, ρ⟩ fun r => ∀ c : Dev nD,
      r.2.mem ((c : Thread nD τ).loc main_v1)
        = Spec.cov (shapeCast S8x64x131072 (m ((c : Thread nD τ).loc main_arg0)) shapeCasts_S8x64x32x64x64_S8x64x131072)
      ∧ r.2.mem ((c : Thread nD τ).loc main_arg0) = m ((c : Thread nD τ).loc main_arg0) :=
  (θ_run defs _ _).mono (fun r h c => ⟨(h c).1.trans ((final m c).trans (congrArg Spec.cov (arr_eq m c))), (h c).2⟩)
    (run_blocks m ρ)

end Cert.KernelIdeal.RefValue

end
-- ==== Proof.RefValue.lean ====
/-
  The reference computes the covariance of `Spec.cov`, on real inputs.

  The reference moves the row axis last and merges `(h, w, c)` into one axis of 131072 positions; entry
  `(b, n, d)` of that array is entry `(b, d, σ n)` of the input with `(c, h, w)` merged, `σ` the permutation of
  positions `CovAlgebra.relayout`. Its result at `(b, d, e)` is the mean-centred sum over `n` divided by
  131072; for real entries the covariance identity turns that into the raw second moment minus the
  product of the means, and a sum over `n` of a function of `σ n` is the sum over all positions.
-/
import proofs.«123525_j25031069401648_1_alg».proof.Proof.Gen.ReferenceIdeal.Read
import proofs.«123525_j25031069401648_1_alg».proof.Proof.CovAlgebra
import proofs.«123525_j25031069401648_1_alg».proof.Proof.Consts
import proofs.«123525_j25031069401648_1_alg».proof.Proof.Spec

noncomputable section

namespace Cert.ReferenceIdeal.RefValue

open Idealize.ShloMosaic Idealize.ShloMosaic.ValueIdx Cert.ReferenceIdeal Cert.ReferenceIdeal.Gen Cert.ReferenceIdeal.Read

/-- The coordinates of position `(b, n, d)` of the 8 × 131072 × 64 array, read in the 8 × 64 × 64 × 32 × 64 box. -/
theorem pos_coords (b n d : ℕ) (hb : b < 8) (hn : n < 131072) (hd : d < 64) :
    ((b * 131072 + n) * 64 + d) / 8388608 = b ∧ ((b * 131072 + n) * 64 + d) % 64 = d
      ∧ ((b * 131072 + n) * 64 + d) / 64 % 32 = n % 32 ∧ ((b * 131072 + n) * 64 + d) / 131072 % 64 = n / 2048
      ∧ ((b * 131072 + n) * 64 + d) / 2048 % 64 = n / 32 % 64 := by
  refine ⟨?_, ?_, ?_, ?_, ?_⟩ <;> omega

/-- Entry `(b, n, d)` of the transposed and merged array is entry `(b, d, σ n)` of the merged input. -/
theorem xr_apply (x : FVec Ideal S8x64x32x64x64 .f32) (h : S8x64x32x64x64.ShapeCasts ⟨3, ![8, 64, 131072]⟩)
    (b : Fin 8) (n : Fin 131072) (d : Fin 64) :
    val_main_v1 (F := Ideal) x (ix3 b n d) = shapeCast ⟨3, ![8, 64, 131072]⟩ x h (ix3 b d (CovAlgebra.relayout n)) := by
  rw [val_main_v1_apply, val_main_v0_apply]
  symm
  refine shapeCast_apply x h _ _ ?_
  rw [Shape.rowMajor_val_five, Shape.rowMajor_val_three]
  obtain ⟨e0, e1, e2, e3, e4⟩ := pos_coords b.val n.val d.val b.isLt n.isLt d.isLt
  show ((((((b.val * 131072 + n.val) * 64 + d.val) / 8388608) * 64 + ((b.val * 131072 + n.val) * 64 + d.val) % 64) * 32
        + ((b.val * 131072 + n.val) * 64 + d.val) / 64 % 32) * 64 + ((b.val * 131072 + n.val) * 64 + d.val) / 131072 % 64) * 64
        + ((b.val * 131072 + n.val) * 64 + d.val) / 2048 % 64
      = (b.val * 64 + d.val) * 131072 + (n.val % 32 * 4096 + n.val / 2048 * 64 + n.val / 32 % 64)
  rw [e0, e1, e2, e3, e4]
  ring

/-- The index functions of the generated reading lemmas, at coordinates. -/
theorem lidx_eq (b : Fin 8) (d e : Fin 64) (k : Fin 131072) : lidx_main_v8 (ix3 b d e) k = ix3 b k d := by
  funext a; match a with | ⟨0, _⟩ => rfl | ⟨1, _⟩ => rfl | ⟨2, _⟩ => rfl

theorem ridx_eq (b : Fin 8) (d e : Fin 64) (k : Fin 131072) : ridx_main_v8 (ix3 b d e) k = ix3 b k e := by
  funext a; match a with | ⟨0, _⟩ => rfl | ⟨1, _⟩ => rfl | ⟨2, _⟩ => rfl

theorem mean_idx_eq (b : Fin 8) (n : Fin 131072) (d : Fin 64) (k : Fin 131072) :
    idx_main_v2 (idx_main_v3 (idx_main_v6 (ix3 b n d))) k = ix3 b k d := by
  funext a; match a with | ⟨0, _⟩ => rfl | ⟨1, _⟩ => rfl | ⟨2, _⟩ => rfl

/-- A mean-centred entry: the entry minus its column's sum over the 131072 positions divided by 131072. -/
theorem centred_apply (x : FVec Ideal S8x64x32x64x64 .f32) (b : Fin 8) (k : Fin 131072) (d : Fin 64) :
    val_main_v7 (F := Ideal) x (ix3 b k d) = val_main_v1 (F := Ideal) x (ix3 b k d)
      - Ideal.div (Ideal.ofBits .f32 0x00000000#32 + ∑ k' : Fin 131072, val_main_v1 (F := Ideal) x (ix3 b k' d))
          (Ideal.ofBits .f32 0x48000000#32) := by
  rw [val_main_v7_apply, val_main_v6_apply, val_main_v5_apply, val_main_v3_apply, val_main_v4_apply,
    val_main_cst_0_apply, val_main_v2_apply, val_main_cst_apply]
  simp only [mean_idx_eq]
  rfl

/-- On real inputs the reference's result is the covariance of the merged input. -/
theorem ref_eq (x : FVec Ideal S8x64x32x64x64 .f32) (hfin : ∀ i, ∃ r : ℝ, x i = (r : EReal))
    (h : S8x64x32x64x64.ShapeCasts ⟨3, ![8, 64, 131072]⟩) :
    val_main_v10 (F := Ideal) x = Spec.cov (shapeCast ⟨3, ![8, 64, 131072]⟩ x h) := by
  funext j
  obtain ⟨b, d, e, rfl⟩ : ∃ b d e, j = ix3 b d e := ⟨j 0, j 1, j 2, eq_ix3 j⟩
  have hy : ∀ i, ∃ r : ℝ, shapeCast ⟨3, ![8, 64, 131072]⟩ x h i = (r : EReal) := fun i => hfin _
  choose ry hry using hy
  rw [val_main_v10_apply, val_main_v9_apply, val_main_cst_1_apply, val_main_v8_apply, Spec.cov_apply]
  simp only [lidx_eq, ridx_eq, centred_apply, xr_apply x h, hry]
  show Ideal.div _ (Ideal.ofBits .f32 0x48000000#32) = _
  rw [Consts.ofBits_n, Consts.ofBits_zero]
  refine (CovAlgebra.cov_law (fun k => ry (ix3 b d (CovAlgebra.relayout k)))
    (fun k => ry (ix3 b e (CovAlgebra.relayout k))) 131072 (by norm_num) (by rw [Fintype.card_fin]; norm_num)).trans ?_
  beta_reduce
  rw [Equiv.sum_comp CovAlgebra.relayout (fun n => (ry (ix3 b d n) : EReal) * (ry (ix3 b e n) : EReal)),
    Equiv.sum_comp CovAlgebra.relayout (fun n => (ry (ix3 b d n) : EReal)),
    Equiv.sum_comp CovAlgebra.relayout (fun n => (ry (ix3 b e n) : EReal)), ← Consts.ofBits_inv_n]

end Cert.ReferenceIdeal.RefValue

end
-- ==== Proof.lean ====
/-
  The kernel computes the per-batch covariance of the 64 rows of `x` (8 batches; each row has
  `32 * 64 * 64 = 131072` entries) in one pass: it accumulates, tile by tile along the merged `(c, h, w)` axis, the
  products `∑ x_g x_e` and the row sums `∑ x_g`, and at the last tile writes
      (∑ x_g x_e) * 2^-17 - ((∑ x_g) * 2^-17) * ((∑ x_e) * 2^-17).
  The reference centres the rows first: it merges the axes in the order `(h, w, c)`, subtracts from each row its
  mean `(∑ x_g) / 131072`, and returns `(∑ (x_g - μ_g) (x_e - μ_e)) / 131072`.

  Over the extended reals the two agree on finite inputs:
    * `2^-17` is exactly `1 / 131072`, and dividing by the real `131072` is multiplying by its reciprocal;
    * the order in which the 131072 positions of a row are summed does not matter (the kernel's four tiles in
      order, the reference's `(h, w, c)` order: one permutation of the positions);
    * for REAL entries, `∑ (x_g - μ_g) (x_e - μ_e) = ∑ x_g x_e - N μ_g μ_e` (module CovAlgebra) — this is where the
      precondition is used: every entry of a finite input is a real (module Finite).
  Both results are the one function `Spec.cov` of the reshaped argument (modules KernelValue, RefValue).
  The three frames are the generated runs; the idealization rewrote nothing.
-/
import proofs.«123525_j25031069401648_1_alg».proof.Defs
import proofs.«123525_j25031069401648_1_alg».proof.Proof.Gen.Kernel
import proofs.«123525_j25031069401648_1_alg».proof.Proof.Gen.Kernel.Skeleton
import proofs.«123525_j25031069401648_1_alg».proof.Proof.Gen.Kernel.Launch
import proofs.«123525_j25031069401648_1_alg».proof.Proof.Gen.Kernel.Points
import proofs.«123525_j25031069401648_1_alg».proof.Proof.Gen.Kernel.Frame
import proofs.«123525_j25031069401648_1_alg».proof.Proof.Gen.KernelIdeal
import proofs.«123525_j25031069401648_1_alg».proof.Proof.Gen.KernelIdeal.Skeleton
import proofs.«123525_j25031069401648_1_alg».proof.Proof.Gen.KernelIdeal.Launch
import proofs.«123525_j25031069401648_1_alg».proof.Proof.Gen.KernelIdeal.Points
import proofs.«123525_j25031069401648_1_alg».proof.Proof.Gen.KernelIdeal.Frame
import proofs.«123525_j25031069401648_1_alg».proof.Proof.Gen.ReferenceIdeal
import proofs.«123525_j25031069401648_1_alg».proof.Proof.Gen.KernelIdeal.Value
import proofs.«123525_j25031069401648_1_alg».proof.Proof.Gen.ReferenceIdeal.Run
import proofs.«123525_j25031069401648_1_alg».proof.Proof.Gen.ReferenceIdeal.Read
import proofs.«123525_j25031069401648_1_alg».proof.Proof.Gen.Pre_finite_inputs
import proofs.«123525_j25031069401648_1_alg».proof.Proof.Finite
import proofs.«123525_j25031069401648_1_alg».proof.Proof.KernelValue
import proofs.«123525_j25031069401648_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the finite argument both programs end at the covariance of the reshaped
    argument. -/
theorem algebraic : Cert.algebraic_KernelIdeal_ReferenceIdeal := by
  intro m ρ m' ρ' hpre hagree
  refine ⟨_, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, hagree c]
  exact Cert.ReferenceIdeal.RefValue.ref_eq _ (Cert.Finite.real_of_pre _ (hpre c)) _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
